-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S512 .f32) (main_arg5 : FVec F S512x256 .f32) (main_arg6 : FVec F S256 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S16384x512 .f32) (main_arg1 : FVec F S512x512 .f32) (main_arg2 : FVec F S512 .f32) (main_arg3 : FVec F S512x512 .f32) (main_arg4 : FVec F S512 .f32) (main_arg5 : FVec F S512x256 .f32) (main_arg6 : FVec F S256 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S16384x512 : Shape := ⟨2, ![16384, 512]⟩
abbrev S512x512 : Shape := ⟨2, ![512, 512]⟩
abbrev S512 : Shape := ⟨1, ![512]⟩
abbrev S512x256 : Shape := ⟨2, ![512, 256]⟩
abbrev S256 : Shape := ⟨1, ![256]⟩
abbrev S512x1280 : Shape := ⟨2, ![512, 1280]⟩
abbrev S1x512 : Shape := ⟨2, ![1, 512]⟩
abbrev S1x256 : Shape := ⟨2, ![1, 256]⟩
abbrev S1x1280 : Shape := ⟨2, ![1, 1280]⟩
abbrev S16384x256 : Shape := ⟨2, ![16384, 256]⟩
abbrev S2048x512 : Shape := ⟨2, ![2048, 512]⟩
abbrev S2048x256 : Shape := ⟨2, ![2048, 256]⟩

abbrev nBuf : Space → Nat
  | .hbm => 13
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S512x1280, .f32⟩
  | .hbm, ⟨8, _⟩ => ⟨S1x512, .f32⟩
  | .hbm, ⟨9, _⟩ => ⟨S1x512, .f32⟩
  | .hbm, ⟨10, _⟩ => ⟨S1x256, .f32⟩
  | .hbm, ⟨11, _⟩ => ⟨S1x1280, .f32⟩
  | .hbm, ⟨12, _⟩ => ⟨S16384x256, .f32⟩
  | .local _ .vmem, ⟨0, _⟩ => ⟨S2048x512, .f32⟩
  | .local _ .vmem, ⟨1, _⟩ => ⟨S2048x512, .f32⟩
  | .local _ .vmem, ⟨2, _⟩ => ⟨S512x1280, .f32⟩
  | .local _ .vmem, ⟨3, _⟩ => ⟨S1x1280, .f32⟩
  | .local _ .vmem, ⟨4, _⟩ => ⟨S2048x256, .f32⟩
  | .local _ .vmem, ⟨5, _⟩ => ⟨S2048x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S512x512_S512x512_S512x256_S512x1280_d1 : Shape.Concatenates [S512x512, S512x512, S512x256] S512x1280 1
  shapeCasts_S512_S1x512 : S512.ShapeCasts S1x512
  shapeCasts_S256_S1x256 : S256.ShapeCasts S1x256
  concatenates_S1x512_S1x512_S1x256_S1x1280_d1 : Shape.Concatenates [S1x512, S1x512, S1x256] S1x1280 1
  inb_S2048x512_S2048x512_0_0 : ∀ a, (![0, 0] : Fin 2 → Nat) a + S2048x512.size a ≤ S2048x512.size a
  h_S2048x512 : 0 < S2048x512.numel
  inb_S512x1280_S512x512_0_0 : ∀ a, (![0, 0] : Fin 2 → Nat) a + S512x512.size a ≤ S512x1280.size a
  h_S512x512 : 0 < S512x512.numel
  shapeCasts_S512x512_S512x512 : S512x512.ShapeCasts S512x512
  inb_S1x1280_S1x512_0_0 : ∀ a, (![0, 0] : Fin 2 → Nat) a + S1x512.size a ≤ S1x1280.size a
  h_S1x512 : 0 < S1x512.numel
  shapeCasts_S1x512_S1x512 : S1x512.ShapeCasts S1x512
  broadcasts_S1x512_S2048x512 : S1x512.Broadcasts S2048x512
  inb_S512x1280_S512x512_0_512 : ∀ a, (![0, 512] : Fin 2 → Nat) a + S512x512.size a ≤ S512x1280.size a
  inb_S1x1280_S1x512_0_512 : ∀ a, (![0, 512] : Fin 2 → Nat) a + S1x512.size a ≤ S1x1280.size a
  inb_S512x1280_S512x256_0_1024 : ∀ a, (![0, 1024] : Fin 2 → Nat) a + S512x256.size a ≤ S512x1280.size a
  h_S512x256 : 0 < S512x256.numel
  shapeCasts_S512x256_S512x256 : S512x256.ShapeCasts S512x256
  inb_S1x1280_S1x256_0_1024 : ∀ a, (![0, 1024] : Fin 2 → Nat) a + S1x256.size a ≤ S1x1280.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x512_S512x512_S2048x512_1_0_0_1_n_n_wf : DotDims.WF S2048x512 S512x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1280.size a ≤ S512x1280.size a
  hwx0_1 : ∀ i : grid0.Coords, EltTy.bits .f32 = 32 ∨ (Rect.block (s := S512x1280) S512x1280.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x1280.size a
  hwx0_2 : ∀ i : grid0.Coords, EltTy.bits .f32 = 32 ∨ (Rect.block (s := S1x1280) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S16384x256.size a
  hwx0_3 : ∀ i : grid0.Coords, EltTy.bits .f32 = 32 ∨ (Rect.block (s := S16384x256) S2048x256.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1280.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x512 : Shape := ⟨2, ![1, 512]⟩
abbrev S1x256 : Shape := ⟨2, ![1, 256]⟩
abbrev S16384x256 : Shape := ⟨2, ![16384, 256]⟩

abbrev nBuf : Space → Nat
  | .hbm => 11
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S1x512, .f32⟩
  | .hbm, ⟨8, _⟩ => ⟨S1x512, .f32⟩
  | .hbm, ⟨9, _⟩ => ⟨S1x256, .f32⟩
  | .hbm, ⟨10, _⟩ => ⟨S16384x256, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S512_S1x512 : S512.ShapeCasts S1x512
  shapeCasts_S256_S1x256 : S256.ShapeCasts S1x256
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x512_S512x512_S512x512_1_0_0_1_n_n_wf : DotDims.WF S512x512 S512x512 S512x512 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S16384x256.size a
  hwx0_7 : ∀ i : grid0.Coords, EltTy.bits .f32 = 32 ∨ (Rect.block (s := S16384x256) S512x256.size (cc0_transform_7 i) (hinb0_7 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.FrameKernel.lean ====
/-
  The frame of the packed three-layer perceptron's program: @main concatenates the three weight matrices side by
  side into one [512, 1280] array and the three biases, each recast as a row, into one [1, 1280] row, then runs one
  pipelined region over 8 row tiles of 2048 rows. Each point loads its tile of the input, the three column spans
  (columns 0–511, 512–1023, 1024–1279) of the packed weights and of the packed bias row, and stores one [2048, 256]
  tile of the result through the whole output block. Nothing writes an argument array: the host operations write
  only their own results, the region writes back only its result window.

  Stated at any float instance: what the region finds in each array (`V`), a window's block at a point (`iblk`),
  what the body leaves in the output block as a function of the three input blocks (`out0_3`), the body's triple,
  the pipeline's proof data, the run with every array of the pipeline named, and the frame.
-/
import proofs.«116541_g2000203459963882_pallasbulk_452_10_alg».proof.Proof.Gen.Kernel.Launch
import proofs.«116541_g2000203459963882_pallasbulk_452_10_alg».proof.Proof.Gen.Kernel.Skeleton
import proofs.«116541_g2000203459963882_pallasbulk_452_10_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the five host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the pipeline's frame post gives the
    frame claim's post: the input array by the window that stages it and never writes it back, the six weight and
    bias arrays because no window stages them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's accesses -/

/-- The whole input tile. -/
abbrev rX : Rect S2048x512 := Rect.unit (s := S2048x512) ![0, 0] S2048x512.size inb_S2048x512_S2048x512_0_0
/-- The three column spans of the packed weights: columns 0–511, 512–1023, 1024–1279. -/
abbrev rW0 : Rect S512x1280 := Rect.unit (s := S512x1280) ![0, 0] S512x512.size inb_S512x1280_S512x512_0_0
abbrev rW1 : Rect S512x1280 := Rect.unit (s := S512x1280) ![0, 512] S512x512.size inb_S512x1280_S512x512_0_512
abbrev rW2 : Rect S512x1280 := Rect.unit (s := S512x1280) ![0, 1024] S512x256.size inb_S512x1280_S512x256_0_1024
/-- The same three spans of the packed bias row. -/
abbrev rB0 : Rect S1x1280 := Rect.unit (s := S1x1280) ![0, 0] S1x512.size inb_S1x1280_S1x512_0_0
abbrev rB1 : Rect S1x1280 := Rect.unit (s := S1x1280) ![0, 512] S1x512.size inb_S1x1280_S1x512_0_512
abbrev rB2 : Rect S1x1280 := Rect.unit (s := S1x1280) ![0, 1024] S1x256.size inb_S1x1280_S1x256_0_1024
/-- The whole output tile. -/
abbrev rO : Rect S2048x256 := Rect.unit (s := S2048x256) ![0, 0] S2048x256.size inb_S2048x256_S2048x256_0_0

/-! ## What the body leaves in the output block -/

/-- The output block after the body, from the three input blocks: its one store, whose payload is the three-layer
    value of the input tile, the three weight spans and the three bias spans. -/
def out0_3 (x0 : Vec F S2048x512 .f32) (x1 : Vec F S512x1280 .f32) (x2 : Vec F S1x1280 .f32) : Vec F S2048x256 .f32 :=
  View.canon [⟨rO, k0_pay1 (View.ld x0 rX) (View.ld x1 rW0) (View.ld x2 rB0) (View.ld x1 rW1) (View.ld x2 rB1) (View.ld x1 rW2) (View.ld x2 rB2)⟩]

/-- The one store covers the block. -/
theorem cover0_3 (p0 : Vec F S2048x256 .f32) (y : S2048x256.Idx) :
    ∃ pc ∈ ([⟨rO, p0⟩] : List (View.Piece (Elt F) S2048x256 .f32)), y ∈ pc.1.set :=
  View.cover_of_tiled [⟨rO, p0⟩] S2048x256.size (by rfl) y

/-! ## The body's triple -/

set_option maxHeartbeats 1000000 in
/-- The body on whole staging memrefs, the inputs' at contents `x0`, `x1`, `x2` and the output's at anything, runs to
    the continuation holding the inputs' as they were and the output's at `out0_3` of them. -/
theorem sound_kernel (c : Dev nD) (E : Set ℕ) (i : grid0.Coords) (arg1 : Memref sig .tc .vmem S2048x512 .f32) (harg1 : arg1.IsWhole) (arg2 : Memref sig .tc .vmem S512x1280 .f32) (harg2 : arg2.IsWhole) (arg3 : Memref sig .tc .vmem S1x1280 .f32) (harg3 : arg3.IsWhole) (arg4 : Memref sig .tc .vmem S2048x256 .f32) (harg4 : arg4.IsWhole)
    (x0 : Vec F S2048x512 .f32) (x1 : Vec F S512x1280 .f32) (x2 : Vec F S1x1280 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__mlp_kernel i arg1 harg1 arg2 harg2 arg3 harg3 arg4 harg4) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t`
    each input's buffer at its block and the output's at `out0_3` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data computes and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.HFrame

end
-- ==== Proof.FrameKernelIdeal.lean ====
/-
  The frame of the packed three-layer perceptron's program: @main concatenates the three weight matrices side by
  side into one [512, 1280] array and the three biases, each recast as a row, into one [1, 1280] row, then runs one
  pipelined region over 8 row tiles of 2048 rows. Each point loads its tile of the input, the three column spans
  (columns 0–511, 512–1023, 1024–1279) of the packed weights and of the packed bias row, and stores one [2048, 256]
  tile of the result through the whole output block. Nothing writes an argument array: the host operations write
  only their own results, the region writes back only its result window.

  Stated at any float instance: what the region finds in each array (`V`), a window's block at a point (`iblk`),
  what the body leaves in the output block as a function of the three input blocks (`out0_3`), the body's triple,
  the pipeline's proof data, the run with every array of the pipeline named, and the frame.
-/
import proofs.«116541_g2000203459963882_pallasbulk_452_10_alg».proof.Proof.Gen.KernelIdeal.Launch
import proofs.«116541_g2000203459963882_pallasbulk_452_10_alg».proof.Proof.Gen.KernelIdeal.Skeleton
import proofs.«116541_g2000203459963882_pallasbulk_452_10_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the five host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the pipeline's frame post gives the
    frame claim's post: the input array by the window that stages it and never writes it back, the six weight and
    bias arrays because no window stages them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's accesses -/

/-- The whole input tile. -/
abbrev rX : Rect S2048x512 := Rect.unit (s := S2048x512) ![0, 0] S2048x512.size inb_S2048x512_S2048x512_0_0
/-- The three column spans of the packed weights: columns 0–511, 512–1023, 1024–1279. -/
abbrev rW0 : Rect S512x1280 := Rect.unit (s := S512x1280) ![0, 0] S512x512.size inb_S512x1280_S512x512_0_0
abbrev rW1 : Rect S512x1280 := Rect.unit (s := S512x1280) ![0, 512] S512x512.size inb_S512x1280_S512x512_0_512
abbrev rW2 : Rect S512x1280 := Rect.unit (s := S512x1280) ![0, 1024] S512x256.size inb_S512x1280_S512x256_0_1024
/-- The same three spans of the packed bias row. -/
abbrev rB0 : Rect S1x1280 := Rect.unit (s := S1x1280) ![0, 0] S1x512.size inb_S1x1280_S1x512_0_0
abbrev rB1 : Rect S1x1280 := Rect.unit (s := S1x1280) ![0, 512] S1x512.size inb_S1x1280_S1x512_0_512
abbrev rB2 : Rect S1x1280 := Rect.unit (s := S1x1280) ![0, 1024] S1x256.size inb_S1x1280_S1x256_0_1024
/-- The whole output tile. -/
abbrev rO : Rect S2048x256 := Rect.unit (s := S2048x256) ![0, 0] S2048x256.size inb_S2048x256_S2048x256_0_0

/-! ## What the body leaves in the output block -/

/-- The output block after the body, from the three input blocks: its one store, whose payload is the three-layer
    value of the input tile, the three weight spans and the three bias spans. -/
def out0_3 (x0 : Vec F S2048x512 .f32) (x1 : Vec F S512x1280 .f32) (x2 : Vec F S1x1280 .f32) : Vec F S2048x256 .f32 :=
  View.canon [⟨rO, k0_pay1 (View.ld x0 rX) (View.ld x1 rW0) (View.ld x2 rB0) (View.ld x1 rW1) (View.ld x2 rB1) (View.ld x1 rW2) (View.ld x2 rB2)⟩]

/-- The one store covers the block. -/
theorem cover0_3 (p0 : Vec F S2048x256 .f32) (y : S2048x256.Idx) :
    ∃ pc ∈ ([⟨rO, p0⟩] : List (View.Piece (Elt F) S2048x256 .f32)), y ∈ pc.1.set :=
  View.cover_of_tiled [⟨rO, p0⟩] S2048x256.size (by rfl) y

/-! ## The body's triple -/

set_option maxHeartbeats 1000000 in
/-- The body on whole staging memrefs, the inputs' at contents `x0`, `x1`, `x2` and the output's at anything, runs to
    the continuation holding the inputs' as they were and the output's at `out0_3` of them. -/
theorem sound_kernel (c : Dev nD) (E : Set ℕ) (i : grid0.Coords) (arg1 : Memref sig .tc .vmem S2048x512 .f32) (harg1 : arg1.IsWhole) (arg2 : Memref sig .tc .vmem S512x1280 .f32) (harg2 : arg2.IsWhole) (arg3 : Memref sig .tc .vmem S1x1280 .f32) (harg3 : arg3.IsWhole) (arg4 : Memref sig .tc .vmem S2048x256 .f32) (harg4 : arg4.IsWhole)
    (x0 : Vec F S2048x512 .f32) (x1 : Vec F S512x1280 .f32) (x2 : Vec F S1x1280 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__mlp_kernel i arg1 harg1 arg2 harg2 arg3 harg3 arg4 harg4) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t`
    each input's buffer at its block and the output's at `out0_3` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data computes and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.HFrame

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.Spec.lean ====
/-
  The three-layer perceptron over the extended reals, one row at a time.

  For a row x of 512 numbers, weights w0, w1 (512 × 512), w2 (512 × 256) and biases b0, b1 (512), b2 (256):
    h1(j) = tanh (Σ_i x(i) · w0(i, j) + b0(j)),
    h2(k) = tanh (Σ_j h1(j) · w1(j, k) + b1(k)),
    y(q)  = Σ_k h2(k) · w2(k, q) + b2(q).
  Both programs compute this for every row of the [16384, 512] input; they differ only in how the rows are tiled
  and in how the weights and biases are laid out when the kernel body reads them.
-/
import Idealize.ShloMosaic.PureOps.Ideal
import Idealize.ShloMosaic.Lib.ValueIdx

noncomputable section

open scoped BigOperators

namespace Cert.Spec

open Idealize.ShloMosaic Idealize.ShloMosaic.ValueIdx

abbrev A16384x512 : Shape := ⟨2, ![16384, 512]⟩
abbrev A512x512 : Shape := ⟨2, ![512, 512]⟩
abbrev A512x256 : Shape := ⟨2, ![512, 256]⟩
abbrev A512 : Shape := ⟨1, ![512]⟩
abbrev A256 : Shape := ⟨1, ![256]⟩
abbrev A16384x256 : Shape := ⟨2, ![16384, 256]⟩

/-- One affine layer followed by nothing: entry `j` of `x · w + b`. -/
def affine {K N : Nat} (x : Fin K → EReal) (w : Fin K → Fin N → EReal) (b : Fin N → EReal) (j : Fin N) : EReal :=
  (∑ i : Fin K, x i * w i j) + b j

/-- The perceptron's value on one row. -/
def mlpRow (x : Fin 512 → EReal) (w0 : Fin 512 → Fin 512 → EReal) (b0 : Fin 512 → EReal)
    (w1 : Fin 512 → Fin 512 → EReal) (b1 : Fin 512 → EReal) (w2 : Fin 512 → Fin 256 → EReal) (b2 : Fin 256 → EReal)
    (q : Fin 256) : EReal :=
  affine (fun k => Ideal.tanh (affine (fun j => Ideal.tanh (affine x w0 b0 j)) w1 b1 k)) w2 b2 q

/-- The result array as one function of the seven argument arrays: row `r` of the result is the perceptron's value
    on row `r` of the input. -/
def G (x : A16384x512.Idx → EReal) (w0 : A512x512.Idx → EReal) (b0 : A512.Idx → EReal) (w1 : A512x512.Idx → EReal)
    (b1 : A512.Idx → EReal) (w2 : A512x256.Idx → EReal) (b2 : A256.Idx → EReal) : A16384x256.Idx → EReal :=
  fun i => mlpRow (fun k => x (ix2 (⟨(i 0).val, (i 0).isLt⟩ : Fin 16384) k)) (fun a b => w0 (ix2 a b)) (fun a => b0 (ix1 a))
    (fun a b => w1 (ix2 a b)) (fun a => b1 (ix1 a)) (fun a b => w2 (ix2 a b)) (fun a => b2 (ix1 a)) ⟨(i 1).val, (i 1).isLt⟩

/-- The result array at entry (r, q). -/
theorem G_at (x : A16384x512.Idx → EReal) (w0 : A512x512.Idx → EReal) (b0 : A512.Idx → EReal) (w1 : A512x512.Idx → EReal)
    (b1 : A512.Idx → EReal) (w2 : A512x256.Idx → EReal) (b2 : A256.Idx → EReal) (r : Fin 16384) (q : Fin 256) :
    G x w0 b0 w1 b1 w2 b2 (ix2 r q)
      = mlpRow (fun k => x (ix2 r k)) (fun a b => w0 (ix2 a b)) (fun a => b0 (ix1 a))
          (fun a b => w1 (ix2 a b)) (fun a => b1 (ix1 a)) (fun a b => w2 (ix2 a b)) (fun a => b2 (ix1 a)) q := rfl

/-- The row value depends only on the row, the weights and the biases as functions. -/
theorem mlpRow_congr {x x' : Fin 512 → EReal} {w0 w0' : Fin 512 → Fin 512 → EReal} {b0 b0' : Fin 512 → EReal}
    {w1 w1' : Fin 512 → Fin 512 → EReal} {b1 b1' : Fin 512 → EReal} {w2 w2' : Fin 512 → Fin 256 → EReal}
    {b2 b2' : Fin 256 → EReal} (q : Fin 256)
    (hx : x = x') (h0 : w0 = w0') (g0 : b0 = b0') (h1 : w1 = w1') (g1 : b1 = b1') (h2 : w2 = w2') (g2 : b2 = b2') :
    mlpRow x w0 b0 w1 b1 w2 b2 q = mlpRow x' w0' b0' w1' b1' w2' b2' q := by
  subst hx h0 g0 h1 g1 h2 g2; rfl

end Cert.Spec

end
-- ==== Proof.Layers.lean ====
/-
  The perceptron's layers read at an entry, for any number of rows.

  One layer of the kernel bodies is a product into a zero accumulator plus a bias row broadcast down the rows;
  at entry (p, j) it is Σ_i x(p, i) · w(i, j) + b(j). Three of them, with tanh after the first two, give the
  perceptron's value on row p. Also here: an entry of three matrices set side by side along their columns, and of a
  rank-1 array recast as a one-row matrix.
-/
import Idealize.ShloMosaic.PureOps.Ideal
import Idealize.ShloMosaic.PureOps.Ideal.Laws
import Idealize.ShloMosaic.Lib.ValueIdx
import Idealize.ShloMosaic.Lib.Pipeline.Value
import proofs.«116541_g2000203459963882_pallasbulk_452_10_alg».proof.Proof.LibDot
import proofs.«116541_g2000203459963882_pallasbulk_452_10_alg».proof.Proof.Spec

noncomputable section

open scoped BigOperators

namespace Cert.Layers

open Idealize.ShloMosaic Idealize.ShloMosaic.ValueIdx Cert.Spec

/-- A bias row broadcast down `R` rows, at entry (p, j), is the row's entry j. -/
theorem bias_at {R N : Nat} (b : (⟨2, ![1, N]⟩ : Shape).Idx → EReal)
    (h : (⟨2, ![1, N]⟩ : Shape).Broadcasts ⟨2, ![R, N]⟩) (p : Fin R) (j : Fin N) :
    broadcastTo (⟨2, ![R, N]⟩ : Shape) b h (ix2 p j) = b (ix2 (0 : Fin 1) j) := by
  refine broadcastTo_apply b h _ _ fun a => ?_
  match a with
  | ⟨0, _⟩ => exact (if_pos rfl).symm
  | ⟨1, _⟩ =>
    show j.val = if N = 1 then 0 else j.val
    split
    · have := j.isLt; omega
    · rfl

/-- One layer at entry (p, j): the product into zero plus the broadcast bias row. -/
theorem layer_at {R K N : Nat} (d : DotDims ⟨2, ![R, K]⟩ ⟨2, ![K, N]⟩ ⟨2, ![R, N]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ .f32) (w : FVec Ideal ⟨2, ![K, N]⟩ .f32) (b : FVec Ideal ⟨2, ![1, N]⟩ .f32)
    (h : (⟨2, ![1, N]⟩ : Shape).Broadcasts ⟨2, ![R, N]⟩) (p : Fin R) (j : Fin N) :
    addf (matmul d none x w (constant ⟨2, ![R, N]⟩ .f32 0x00000000#32)) (broadcastTo ⟨2, ![R, N]⟩ b h) (ix2 p j)
      = affine (fun i => x (ix2 p i)) (fun a c => w (ix2 a c)) (fun a => b (ix2 (0 : Fin 1) a)) j := by
  rw [addf_apply, bias_at]
  unfold affine
  exact congrArg (· + b (ix2 (0 : Fin 1) j)) (Cert.LibDot.matmul_zero_at d hl hr hln hrn hlb hrb none x w p j)

/-- The three layers at entry (p, q): the perceptron's value on row p of `x`. -/
theorem mlp_at {R : Nat} (d1 : DotDims ⟨2, ![R, 512]⟩ ⟨2, ![512, 512]⟩ ⟨2, ![R, 512]⟩)
    (d2 : DotDims ⟨2, ![R, 512]⟩ ⟨2, ![512, 256]⟩ ⟨2, ![R, 256]⟩)
    (hl1 : d1.lhsContracting = [1]) (hr1 : d1.rhsContracting = [0]) (hln1 : d1.lhsNonContracting = [0])
    (hrn1 : d1.rhsNonContracting = [1]) (hlb1 : d1.lhsBatch = []) (hrb1 : d1.rhsBatch = [])
    (hl2 : d2.lhsContracting = [1]) (hr2 : d2.rhsContracting = [0]) (hln2 : d2.lhsNonContracting = [0])
    (hrn2 : d2.rhsNonContracting = [1]) (hlb2 : d2.lhsBatch = []) (hrb2 : d2.rhsBatch = [])
    (x : FVec Ideal ⟨2, ![R, 512]⟩ .f32) (w0 : FVec Ideal ⟨2, ![512, 512]⟩ .f32) (b0 : FVec Ideal ⟨2, ![1, 512]⟩ .f32)
    (w1 : FVec Ideal ⟨2, ![512, 512]⟩ .f32) (b1 : FVec Ideal ⟨2, ![1, 512]⟩ .f32)
    (w2 : FVec Ideal ⟨2, ![512, 256]⟩ .f32) (b2 : FVec Ideal ⟨2, ![1, 256]⟩ .f32)
    (hb1 : (⟨2, ![1, 512]⟩ : Shape).Broadcasts ⟨2, ![R, 512]⟩) (hb2 : (⟨2, ![1, 256]⟩ : Shape).Broadcasts ⟨2, ![R, 256]⟩)
    (p : Fin R) (q : Fin 256) :
    addf (matmul d2 none
        (tanh (addf (matmul d1 none
          (tanh (addf (matmul d1 none x w0 (constant ⟨2, ![R, 512]⟩ .f32 0x00000000#32)) (broadcastTo ⟨2, ![R, 512]⟩ b0 hb1)))
          w1 (constant ⟨2, ![R, 512]⟩ .f32 0x00000000#32)) (broadcastTo ⟨2, ![R, 512]⟩ b1 hb1)))
        w2 (constant ⟨2, ![R, 256]⟩ .f32 0x00000000#32)) (broadcastTo ⟨2, ![R, 256]⟩ b2 hb2) (ix2 p q)
      = mlpRow (fun i => x (ix2 p i)) (fun a c => w0 (ix2 a c)) (fun a => b0 (ix2 (0 : Fin 1) a))
          (fun a c => w1 (ix2 a c)) (fun a => b1 (ix2 (0 : Fin 1) a)) (fun a c => w2 (ix2 a c)) (fun a => b2 (ix2 (0 : Fin 1) a)) q := by
  rw [layer_at d2 hl2 hr2 hln2 hrn2 hlb2 hrb2]
  unfold mlpRow
  refine congrArg (fun f => affine f _ _ q) (funext fun k => ?_)
  refine (congrArg Ideal.tanh (layer_at d1 hl1 hr1 hln1 hrn1 hlb1 hrb1 _ w1 b1 hb1 p k)).trans ?_
  refine congrArg Ideal.tanh (congrArg (fun f => affine f _ _ k) (funext fun j => ?_))
  exact congrArg Ideal.tanh (layer_at d1 hl1 hr1 hln1 hrn1 hlb1 hrb1 x w0 b0 hb1 p j)

/-! ## Three matrices side by side along their columns, at an entry of each piece -/

section Cat3

variable {R A B C N : Nat}
  (h : Shape.Concatenates [(⟨2, ![R, A]⟩ : Shape), (⟨2, ![R, B]⟩ : Shape), (⟨2, ![R, C]⟩ : Shape)] (⟨2, ![R, N]⟩ : Shape) (1 : Fin 2))
  (a : (⟨2, ![R, A]⟩ : Shape).Idx → EReal) (b : (⟨2, ![R, B]⟩ : Shape).Idx → EReal) (c : (⟨2, ![R, C]⟩ : Shape).Idx → EReal)

/-- A column of the first piece. -/
theorem cat3_first (r : Fin R) (k : Fin A) (hk : k.val < N) :
    concatenate (⟨2, ![R, N]⟩ : Shape) (1 : Fin 2)
        [⟨(⟨2, ![R, A]⟩ : Shape), a⟩, ⟨(⟨2, ![R, B]⟩ : Shape), b⟩, ⟨(⟨2, ![R, C]⟩ : Shape), c⟩] h (ix2 r ⟨k.val, hk⟩)
      = a (ix2 r k) := by
  refine concatenate_apply_piece (t := (⟨2, ![R, N]⟩ : Shape)) (1 : Fin 2)
      [⟨(⟨2, ![R, A]⟩ : Shape), a⟩, ⟨(⟨2, ![R, B]⟩ : Shape), b⟩, ⟨(⟨2, ![R, C]⟩ : Shape), c⟩]
      h (ix2 r ⟨k.val, hk⟩) 0 (by simp) (⟨2, ![R, A]⟩ : Shape) a rfl rfl 0 rfl (ix2 r k) ?_ ?_
  · intro q hq
    match q, hq with
    | ⟨0, _⟩, _ => rfl
    | ⟨1, _⟩, hq => exact absurd rfl hq
  · show 0 + k.val = k.val
    omega

/-- A column of the second piece. -/
theorem cat3_second (r : Fin R) (k : Fin B) (hk : A + k.val < N) :
    concatenate (⟨2, ![R, N]⟩ : Shape) (1 : Fin 2)
        [⟨(⟨2, ![R, A]⟩ : Shape), a⟩, ⟨(⟨2, ![R, B]⟩ : Shape), b⟩, ⟨(⟨2, ![R, C]⟩ : Shape), c⟩] h (ix2 r ⟨A + k.val, hk⟩)
      = b (ix2 r k) := by
  refine concatenate_apply_piece (t := (⟨2, ![R, N]⟩ : Shape)) (1 : Fin 2)
      [⟨(⟨2, ![R, A]⟩ : Shape), a⟩, ⟨(⟨2, ![R, B]⟩ : Shape), b⟩, ⟨(⟨2, ![R, C]⟩ : Shape), c⟩]
      h (ix2 r ⟨A + k.val, hk⟩) 1 (by simp) (⟨2, ![R, B]⟩ : Shape) b rfl rfl A rfl (ix2 r k) ?_ ?_
  · intro q hq
    match q, hq with
    | ⟨0, _⟩, _ => rfl
    | ⟨1, _⟩, hq => exact absurd rfl hq
  · show A + k.val = A + k.val
    rfl

/-- A column of the third piece. -/
theorem cat3_third (r : Fin R) (k : Fin C) (hk : A + B + k.val < N) :
    concatenate (⟨2, ![R, N]⟩ : Shape) (1 : Fin 2)
        [⟨(⟨2, ![R, A]⟩ : Shape), a⟩, ⟨(⟨2, ![R, B]⟩ : Shape), b⟩, ⟨(⟨2, ![R, C]⟩ : Shape), c⟩] h (ix2 r ⟨A + B + k.val, hk⟩)
      = c (ix2 r k) := by
  refine concatenate_apply_piece (t := (⟨2, ![R, N]⟩ : Shape)) (1 : Fin 2)
      [⟨(⟨2, ![R, A]⟩ : Shape), a⟩, ⟨(⟨2, ![R, B]⟩ : Shape), b⟩, ⟨(⟨2, ![R, C]⟩ : Shape), c⟩]
      h (ix2 r ⟨A + B + k.val, hk⟩) 2 (by simp) (⟨2, ![R, C]⟩ : Shape) c rfl rfl (A + B) rfl (ix2 r k) ?_ ?_
  · intro q hq
    match q, hq with
    | ⟨0, _⟩, _ => rfl
    | ⟨1, _⟩, hq => exact absurd rfl hq
  · show A + B + k.val = A + B + k.val
    rfl

end Cat3

/-- A rank-1 array recast as a one-row matrix, at entry (0, j), is its entry j. -/
theorem row_cast_at {N : Nat} (x : (⟨1, ![N]⟩ : Shape).Idx → EReal) (h : (⟨1, ![N]⟩ : Shape).ShapeCasts ⟨2, ![1, N]⟩)
    (j : Fin N) : shapeCast (⟨2, ![1, N]⟩ : Shape) x h (ix2 (0 : Fin 1) j) = x (ix1 j) := by
  refine shapeCast_apply x h _ (ix1 j) ?_
  rw [Shape.rowMajor_val_two, Shape.rowMajor_val_one]
  show j.val = 0 * N + j.val
  omega

end Cert.Layers

end
-- ==== Proof.LibNary3.lean ====
/-
  An operation of three operands given as a literal family: its result with each operand's contents at its own
  reference.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of an operation over the literal family of three references `![x, a, b]`: its function at the
    three operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for rewriting by simplification. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.KernelValue.lean ====
/-
  What the packed program computes: after its run the result array holds, at row r and column q, the perceptron's
  value on row r of the input.

  The region's point t reads rows 2048·t … 2048·t + 2047 of the input and writes the same rows of the result. The
  packed weight array is the three weight matrices side by side, so its column spans 0–511, 512–1023 and 1024–1279
  read back the three matrices entry by entry; the packed bias row is the three biases, each recast as a row, side
  by side, and its three spans read back the three biases. With these the body's stored value at (p, q) is the
  perceptron's value on row 2048·t + p, and the eight row tiles cover the result.
-/
import proofs.«116541_g2000203459963882_pallasbulk_452_10_alg».proof.Proof.FrameKernelIdeal
import proofs.«116541_g2000203459963882_pallasbulk_452_10_alg».proof.Proof.Layers
import proofs.«116541_g2000203459963882_pallasbulk_452_10_alg».proof.Proof.LibNary3
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.HFrame Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the input and the result move down one row tile per point; the packed weights
    and the packed bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The result array as the one function of the argument arrays. -/
abbrev Gk (c : Dev nD) : S16384x256.Idx → EReal :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## The two packed arrays as the region finds them -/

/-- The packed weights: the three weight matrices side by side. -/
theorem V_v0 (c : Dev nD) : (V m c main_v0 : S512x1280.Idx → EReal)
    = concatenate S512x1280 1 [⟨S512x512, m ((c : Thread nD τ).loc main_arg1)⟩, ⟨S512x512, m ((c : Thread nD τ).loc main_arg3)⟩,
        ⟨S512x256, m ((c : Thread nD τ).loc main_arg5)⟩] concatenates_S512x512_S512x512_S512x256_S512x1280_d1 := by
  dsimp only [V, hostOps0]
  after_results
  rfl

/-- The packed bias row: the three biases, each recast as a row, side by side. -/
theorem V_v4 (c : Dev nD) : (V m c main_v4 : S1x1280.Idx → EReal)
    = concatenate S1x1280 1 [⟨S1x512, shapeCast S1x512 (m ((c : Thread nD τ).loc main_arg2)) shapeCasts_S512_S1x512⟩,
        ⟨S1x512, shapeCast S1x512 (m ((c : Thread nD τ).loc main_arg4)) shapeCasts_S512_S1x512⟩,
        ⟨S1x256, shapeCast S1x256 (m ((c : Thread nD τ).loc main_arg6)) shapeCasts_S256_S1x256⟩] concatenates_S1x512_S1x512_S1x256_S1x1280_d1 := by
  dsimp only [V, hostOps0]
  simp only [StableHlo.after_cons, StableHlo.after_nil]
  rw [Cert.LibNary3.nary3_result]
  repeat (first
    | rw [StableHlo.reshape_result]
    | (rw [StableHlo.reshape_result_ne]; rotate_left; decide)
    | (rw [StableHlo.nary_result_ne]; rotate_left; decide))
  rfl

/-! ## The input blocks at a point, entry by entry -/

/-- Row p of the input tile at point t is row 2048·t + p of the input. -/
theorem x_at (c : Dev nD) (t : Fin cfg0.N) (p : Fin 2048) (i : Fin 512) (r : Fin 16384) (hr : r.val = t.val * 2048 + p.val) :
    View.ld (iblk (F := Ideal) m c 0 t) rX (ix2 p i) = m ((c : Thread nD τ).loc main_arg0) (ix2 r i) := by
  show V m c main_arg0 (((cfg0.win 0).blk t).view.emb (rX.idx (ix2 p i))) = _
  rw [V_main_arg0]
  obtain ⟨e0, e1, -⟩ := idx_facts t
  refine congrArg _ (funext fun a => Fin.ext ?_)
  match a with
  | ⟨0, _⟩ => show win0_0.index t (0 : Fin 2) * 2048 + 1 * (0 + 1 * p.val) = r.val; omega
  | ⟨1, _⟩ => show win0_0.index t (1 : Fin 2) * 512 + 1 * (0 + 1 * i.val) = i.val; omega

/-- The first column span of the packed weights is the first weight matrix. -/
theorem w0_at (c : Dev nD) (t : Fin cfg0.N) (a : Fin 512) (b : Fin 512) :
    View.ld (iblk (F := Ideal) m c 1 t) rW0 (ix2 a b) = m ((c : Thread nD τ).loc main_arg1) (ix2 a b) := by
  show V m c main_v0 (((cfg0.win 1).blk t).view.emb (rW0.idx (ix2 a b))) = _
  rw [V_v0]
  obtain ⟨-, -, e0, e1, -⟩ := idx_facts t
  have he : ((cfg0.win 1).blk t).view.emb (rW0.idx (ix2 a b)) = ix2 a (⟨b.val, by have := b.isLt; omega⟩ : Fin 1280) := by
    funext ax; apply Fin.ext
    match ax with
    | ⟨0, _⟩ => show win0_1.index t (0 : Fin 2) * 512 + 1 * (0 + 1 * a.val) = a.val; omega
    | ⟨1, _⟩ => show win0_1.index t (1 : Fin 2) * 1280 + 1 * (0 + 1 * b.val) = b.val; omega
  rw [he]
  exact Cert.Layers.cat3_first _ _ _ _ a b _

/-- The second span is the second weight matrix. -/
theorem w1_at (c : Dev nD) (t : Fin cfg0.N) (a : Fin 512) (b : Fin 512) :
    View.ld (iblk (F := Ideal) m c 1 t) rW1 (ix2 a b) = m ((c : Thread nD τ).loc main_arg3) (ix2 a b) := by
  show V m c main_v0 (((cfg0.win 1).blk t).view.emb (rW1.idx (ix2 a b))) = _
  rw [V_v0]
  obtain ⟨-, -, e0, e1, -⟩ := idx_facts t
  have he : ((cfg0.win 1).blk t).view.emb (rW1.idx (ix2 a b)) = ix2 a (⟨512 + b.val, by have := b.isLt; omega⟩ : Fin 1280) := by
    funext ax; apply Fin.ext
    match ax with
    | ⟨0, _⟩ => show win0_1.index t (0 : Fin 2) * 512 + 1 * (0 + 1 * a.val) = a.val; omega
    | ⟨1, _⟩ => show win0_1.index t (1 : Fin 2) * 1280 + 1 * (512 + 1 * b.val) = 512 + b.val; omega
  rw [he]
  exact Cert.Layers.cat3_second _ _ _ _ a b _

/-- The third span is the third weight matrix. -/
theorem w2_at (c : Dev nD) (t : Fin cfg0.N) (a : Fin 512) (b : Fin 256) :
    View.ld (iblk (F := Ideal) m c 1 t) rW2 (ix2 a b) = m ((c : Thread nD τ).loc main_arg5) (ix2 a b) := by
  show V m c main_v0 (((cfg0.win 1).blk t).view.emb (rW2.idx (ix2 a b))) = _
  rw [V_v0]
  obtain ⟨-, -, e0, e1, -⟩ := idx_facts t
  have he : ((cfg0.win 1).blk t).view.emb (rW2.idx (ix2 a b)) = ix2 a (⟨512 + 512 + b.val, by have := b.isLt; omega⟩ : Fin 1280) := by
    funext ax; apply Fin.ext
    match ax with
    | ⟨0, _⟩ => show win0_1.index t (0 : Fin 2) * 512 + 1 * (0 + 1 * a.val) = a.val; omega
    | ⟨1, _⟩ => show win0_1.index t (1 : Fin 2) * 1280 + 1 * (1024 + 1 * b.val) = 512 + 512 + b.val; omega
  rw [he]
  exact Cert.Layers.cat3_third _ _ _ _ a b _

/-- The first span of the packed bias row is the first bias. -/
theorem b0_at (c : Dev nD) (t : Fin cfg0.N) (a : Fin 512) :
    View.ld (iblk (F := Ideal) m c 2 t) rB0 (ix2 (0 : Fin 1) a) = m ((c : Thread nD τ).loc main_arg2) (ix1 a) := by
  show V m c main_v4 (((cfg0.win 2).blk t).view.emb (rB0.idx (ix2 (0 : Fin 1) a))) = _
  rw [V_v4]
  obtain ⟨-, -, -, -, e0, e1, -⟩ := idx_facts t
  have he : ((cfg0.win 2).blk t).view.emb (rB0.idx (ix2 (0 : Fin 1) a)) = ix2 (0 : Fin 1) (⟨a.val, by have := a.isLt; omega⟩ : Fin 1280) := by
    funext ax; apply Fin.ext
    match ax with
    | ⟨0, _⟩ => show win0_2.index t (0 : Fin 2) * 1 + 1 * (0 + 1 * 0) = 0; omega
    | ⟨1, _⟩ => show win0_2.index t (1 : Fin 2) * 1280 + 1 * (0 + 1 * a.val) = a.val; omega
  rw [he]
  exact (Cert.Layers.cat3_first _ _ _ _ (0 : Fin 1) a _).trans (Cert.Layers.row_cast_at _ _ a)

/-- The second span is the second bias. -/
theorem b1_at (c : Dev nD) (t : Fin cfg0.N) (a : Fin 512) :
    View.ld (iblk (F := Ideal) m c 2 t) rB1 (ix2 (0 : Fin 1) a) = m ((c : Thread nD τ).loc main_arg4) (ix1 a) := by
  show V m c main_v4 (((cfg0.win 2).blk t).view.emb (rB1.idx (ix2 (0 : Fin 1) a))) = _
  rw [V_v4]
  obtain ⟨-, -, -, -, e0, e1, -⟩ := idx_facts t
  have he : ((cfg0.win 2).blk t).view.emb (rB1.idx (ix2 (0 : Fin 1) a)) = ix2 (0 : Fin 1) (⟨512 + a.val, by have := a.isLt; omega⟩ : Fin 1280) := by
    funext ax; apply Fin.ext
    match ax with
    | ⟨0, _⟩ => show win0_2.index t (0 : Fin 2) * 1 + 1 * (0 + 1 * 0) = 0; omega
    | ⟨1, _⟩ => show win0_2.index t (1 : Fin 2) * 1280 + 1 * (512 + 1 * a.val) = 512 + a.val; omega
  rw [he]
  exact (Cert.Layers.cat3_second _ _ _ _ (0 : Fin 1) a _).trans (Cert.Layers.row_cast_at _ _ a)

/-- The third span is the third bias. -/
theorem b2_at (c : Dev nD) (t : Fin cfg0.N) (a : Fin 256) :
    View.ld (iblk (F := Ideal) m c 2 t) rB2 (ix2 (0 : Fin 1) a) = m ((c : Thread nD τ).loc main_arg6) (ix1 a) := by
  show V m c main_v4 (((cfg0.win 2).blk t).view.emb (rB2.idx (ix2 (0 : Fin 1) a))) = _
  rw [V_v4]
  obtain ⟨-, -, -, -, e0, e1, -⟩ := idx_facts t
  have he : ((cfg0.win 2).blk t).view.emb (rB2.idx (ix2 (0 : Fin 1) a)) = ix2 (0 : Fin 1) (⟨512 + 512 + a.val, by have := a.isLt; omega⟩ : Fin 1280) := by
    funext ax; apply Fin.ext
    match ax with
    | ⟨0, _⟩ => show win0_2.index t (0 : Fin 2) * 1 + 1 * (0 + 1 * 0) = 0; omega
    | ⟨1, _⟩ => show win0_2.index t (1 : Fin 2) * 1280 + 1 * (1024 + 1 * a.val) = 512 + 512 + a.val; omega
  rw [he]
  exact (Cert.Layers.cat3_third _ _ _ _ (0 : Fin 1) a _).trans (Cert.Layers.row_cast_at _ _ a)

/-! ## The body's stored value at an entry -/

/-- The stored value at (p, q) is the perceptron's value on row p of the loaded input tile, with the loaded weight
    and bias spans. -/
theorem pay_at (v0 : Vec Ideal S2048x512 .f32) (v1 : Vec Ideal S512x512 .f32) (v4 : Vec Ideal S1x512 .f32)
    (v9 : Vec Ideal S512x512 .f32) (v12 : Vec Ideal S1x512 .f32) (v17 : Vec Ideal S512x256 .f32) (v20 : Vec Ideal S1x256 .f32)
    (p : Fin 2048) (q : Fin 256) :
    k0_pay1 v0 v1 v4 v9 v12 v17 v20 (ix2 p q)
      = Cert.Spec.mlpRow (fun i => v0 (ix2 p i)) (fun a b => v1 (ix2 a b)) (fun a => v4 (ix2 (0 : Fin 1) a))
          (fun a b => v9 (ix2 a b)) (fun a => v12 (ix2 (0 : Fin 1) a)) (fun a b => v17 (ix2 a b)) (fun a => v20 (ix2 (0 : Fin 1) a)) q := by
  unfold k0_pay1
  simp only [shapeCast_self]
  exact Cert.Layers.mlp_at dot_S2048x512_S512x512_S2048x512_1_0_0_1_n_n dot_S2048x512_S512x256_S2048x256_1_0_0_1_n_n
    rfl rfl rfl rfl rfl rfl rfl rfl rfl rfl rfl rfl v0 v1 v4 v9 v12 v17 v20 broadcasts_S1x512_S2048x512 broadcasts_S1x256_S2048x256 p q

/-! ## What a point writes back, the cover, and the run -/

/-- What point t writes back is its block of the one function `Gk`. -/
theorem flushed3_eq (c : Dev nD) (t : Fin cfg0.N) :
    (dats m 0 c).flushed 3 t = ((cfg0.win 3).blk t).view.read (Elt Ideal) (Gk m c) := by
  show (cfg0.win 3).cut (grid0.coords t) ((dats m 0 c).after 3 t) = _
  rw [after0_3]
  unfold out0_3
  rw [View.canon_unit_zero hz]
  funext j
  obtain ⟨p, q, rfl⟩ : ∃ (p : Fin 2048) (q : Fin 256), j = ix2 p q := ⟨j 0, j 1, eq_ix2 j⟩
  obtain ⟨-, -, -, -, -, -, e0, e1⟩ := idx_facts t
  have ht : t.val < 8 := Nat.lt_of_lt_of_eq t.isLt N_0
  have he : ((cfg0.win 3).blk t).view.emb (ix2 p q) = ix2 (⟨t.val * 2048 + p.val, by have := p.isLt; omega⟩ : Fin 16384) q := by
    funext ax; apply Fin.ext
    match ax with
    | ⟨0, _⟩ => show win0_3.index t (0 : Fin 2) * 2048 + 1 * p.val = t.val * 2048 + p.val; omega
    | ⟨1, _⟩ => show win0_3.index t (1 : Fin 2) * 256 + 1 * q.val = q.val; omega
  show k0_pay1 (View.ld (iblk m c 0 t) rX) (View.ld (iblk m c 1 t) rW0) (View.ld (iblk m c 2 t) rB0) (View.ld (iblk m c 1 t) rW1)
      (View.ld (iblk m c 2 t) rB1) (View.ld (iblk m c 1 t) rW2) (View.ld (iblk m c 2 t) rB2) (ix2 p q)
    = Gk m c (((cfg0.win 3).blk t).view.emb (ix2 p q))
  rw [he]
  refine Eq.trans ?_ (Cert.Spec.G_at _ _ _ _ _ _ _ _ q).symm
  refine (pay_at (View.ld (iblk m c 0 t) rX) (View.ld (iblk m c 1 t) rW0) (View.ld (iblk m c 2 t) rB0) (View.ld (iblk m c 1 t) rW1)
      (View.ld (iblk m c 2 t) rB1) (View.ld (iblk m c 1 t) rW2) (View.ld (iblk m c 2 t) rB2) p q).trans ?_
  exact Cert.Spec.mlpRow_congr q (funext fun i => x_at m c t p i _ rfl)
    (funext fun a => funext fun b => w0_at m c t a b) (funext fun a => b0_at m c t a)
    (funext fun a => funext fun b => w1_at m c t a b) (funext fun a => b1_at m c t a)
    (funext fun a => funext fun b => w2_at m c t a b) (funext fun a => b2_at m c t a)

/-- An index of the result array is in point t's block iff its row is in the t-th row tile. -/
theorem mem_blk3 (t : Fin cfg0.N) (i : S16384x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v5).slice (win0_3.rect t)).set ↔ _
  rw [View.set_slice_whole, Rect.mem_set_unit]
  exact Iff.rfl

/-- Every index of the result array is in the block of the point its row tile names. -/
theorem cover3 (i : S16384x256.Idx) : ∃ t : Fin cfg0.N, (cfg0.win 3).flush t = true ∧ i ∈ ((cfg0.win 3).blk t).view.set := by
  have hi0 : (i 0).val < 16384 := (i 0).isLt
  have hi1 : (i 1).val < 256 := (i 1).isLt
  let t : Fin cfg0.N := ⟨(i 0).val / 2048, by rw [show cfg0.N = grid0.N from rfl, N_0]; omega⟩
  obtain ⟨-, -, -, -, -, -, e0, e1⟩ := idx_facts t
  have htv : t.val = (i 0).val / 2048 := rfl
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- The result array after the run is `Gk`. -/
theorem final3 (c : Dev nD) : (dats m 0 c).arrAt 3 cfg0.N = Gk m c :=
  (dats m 0 c).arrAt_eq_of_cover 3 (Gk m c) (fun t _ => flushed3_eq m c t) cover3

/-- The run: the result array at the one function of the arguments, the arguments unchanged. -/
theorem run : θ_run defs (onTc (τ := τ) (main (F := Ideal))) ⟨m, fun _ => 0, ρ⟩ fun r => ∀ c : Dev nD,
      r.2.mem ((c : Thread nD τ).loc main_v5) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 3).trans (final3 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.KValue

end
-- ==== Proof.ReferenceValue.lean ====
/-
  What the reference program computes: after its run the result array holds, at row r and column q, the
  perceptron's value on row r of the input.

  The reference's region runs over 32 row tiles of 512 rows; point t reads rows 512·t … 512·t + 511 of the input and
  writes the same rows of the result. Each weight matrix is one window, read whole at every point, and each bias,
  recast as a row by @main, is one window too. The body's stored value at (p, q) is the perceptron's value on row
  512·t + p, and the 32 row tiles cover the result.
-/
import proofs.«116541_g2000203459963882_pallasbulk_452_10_alg».proof.Proof.Gen.ReferenceIdeal.Value
import proofs.«116541_g2000203459963882_pallasbulk_452_10_alg».proof.Proof.Layers
import Idealize.ShloMosaic.Lib.Pipeline.Value
import Idealize.ShloMosaic.Lib.StableHlo.Run

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the input and the result move down one row tile per point; the weights and the
    bias rows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The result array as the one function of the argument arrays. -/
abbrev Gr (c : Dev nD) : S16384x256.Idx → EReal :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## The three bias rows as the region finds them -/

theorem V_v0 (c : Dev nD) : (V m c main_v0 : S1x512.Idx → EReal) = shapeCast S1x512 (m ((c : Thread nD τ).loc main_arg2)) shapeCasts_S512_S1x512 := by
  dsimp only [V, hostOps0]
  after_results
  rfl

theorem V_v1 (c : Dev nD) : (V m c main_v1 : S1x512.Idx → EReal) = shapeCast S1x512 (m ((c : Thread nD τ).loc main_arg4)) shapeCasts_S512_S1x512 := by
  dsimp only [V, hostOps0]
  after_results
  rfl

theorem V_v2 (c : Dev nD) : (V m c main_v2 : S1x256.Idx → EReal) = shapeCast S1x256 (m ((c : Thread nD τ).loc main_arg6)) shapeCasts_S256_S1x256 := by
  dsimp only [V, hostOps0]
  after_results
  rfl

/-! ## The input blocks at a point, entry by entry -/

/-- Row p of the input tile at point t is row 512·t + p of the input. -/
theorem x_at (c : Dev nD) (t : Fin cfg0.N) (p : Fin 512) (i : Fin 512) (r : Fin 16384) (hr : r.val = t.val * 512 + p.val) :
    View.ld (iblk (F := Ideal) m c 0 t) r0_0 (ix2 p i) = m ((c : Thread nD τ).loc main_arg0) (ix2 r i) := by
  show V m c main_arg0 (((cfg0.win 0).blk t).view.emb (r0_0.idx (ix2 p i))) = _
  rw [V_main_arg0]
  obtain ⟨e0, e1, -⟩ := idx_facts t
  refine congrArg _ (funext fun a => Fin.ext ?_)
  match a with
  | ⟨0, _⟩ => show win0_0.index t (0 : Fin 2) * 512 + 1 * (0 + 1 * p.val) = r.val; omega
  | ⟨1, _⟩ => show win0_0.index t (1 : Fin 2) * 512 + 1 * (0 + 1 * i.val) = i.val; omega

theorem w0_at (c : Dev nD) (t : Fin cfg0.N) (a : Fin 512) (b : Fin 512) :
    View.ld (iblk (F := Ideal) m c 1 t) r0_0 (ix2 a b) = m ((c : Thread nD τ).loc main_arg1) (ix2 a b) := by
  show V m c main_arg1 (((cfg0.win 1).blk t).view.emb (r0_0.idx (ix2 a b))) = _
  rw [V_main_arg1]
  obtain ⟨-, -, e0, e1, -⟩ := idx_facts t
  refine congrArg _ (funext fun ax => Fin.ext ?_)
  match ax with
  | ⟨0, _⟩ => show win0_1.index t (0 : Fin 2) * 512 + 1 * (0 + 1 * a.val) = a.val; omega
  | ⟨1, _⟩ => show win0_1.index t (1 : Fin 2) * 512 + 1 * (0 + 1 * b.val) = b.val; omega

theorem b0_at (c : Dev nD) (t : Fin cfg0.N) (a : Fin 512) :
    View.ld (iblk (F := Ideal) m c 2 t) r0_1 (ix2 (0 : Fin 1) a) = m ((c : Thread nD τ).loc main_arg2) (ix1 a) := by
  show V m c main_v0 (((cfg0.win 2).blk t).view.emb (r0_1.idx (ix2 (0 : Fin 1) a))) = _
  rw [V_v0]
  obtain ⟨-, -, -, -, e0, e1, -⟩ := idx_facts t
  have he : ((cfg0.win 2).blk t).view.emb (r0_1.idx (ix2 (0 : Fin 1) a)) = ix2 (0 : Fin 1) a := by
    funext ax; apply Fin.ext
    match ax with
    | ⟨0, _⟩ => show win0_2.index t (0 : Fin 2) * 1 + 1 * (0 + 1 * 0) = 0; omega
    | ⟨1, _⟩ => show win0_2.index t (1 : Fin 2) * 512 + 1 * (0 + 1 * a.val) = a.val; omega
  rw [he]
  exact Cert.Layers.row_cast_at _ _ a

theorem w1_at (c : Dev nD) (t : Fin cfg0.N) (a : Fin 512) (b : Fin 512) :
    View.ld (iblk (F := Ideal) m c 3 t) r0_0 (ix2 a b) = m ((c : Thread nD τ).loc main_arg3) (ix2 a b) := by
  show V m c main_arg3 (((cfg0.win 3).blk t).view.emb (r0_0.idx (ix2 a b))) = _
  rw [V_main_arg3]
  obtain ⟨-, -, -, -, -, -, e0, e1, -⟩ := idx_facts t
  refine congrArg _ (funext fun ax => Fin.ext ?_)
  match ax with
  | ⟨0, _⟩ => show win0_3.index t (0 : Fin 2) * 512 + 1 * (0 + 1 * a.val) = a.val; omega
  | ⟨1, _⟩ => show win0_3.index t (1 : Fin 2) * 512 + 1 * (0 + 1 * b.val) = b.val; omega

theorem b1_at (c : Dev nD) (t : Fin cfg0.N) (a : Fin 512) :
    View.ld (iblk (F := Ideal) m c 4 t) r0_1 (ix2 (0 : Fin 1) a) = m ((c : Thread nD τ).loc main_arg4) (ix1 a) := by
  show V m c main_v1 (((cfg0.win 4).blk t).view.emb (r0_1.idx (ix2 (0 : Fin 1) a))) = _
  rw [V_v1]
  obtain ⟨-, -, -, -, -, -, -, -, e0, e1, -⟩ := idx_facts t
  have he : ((cfg0.win 4).blk t).view.emb (r0_1.idx (ix2 (0 : Fin 1) a)) = ix2 (0 : Fin 1) a := by
    funext ax; apply Fin.ext
    match ax with
    | ⟨0, _⟩ => show win0_4.index t (0 : Fin 2) * 1 + 1 * (0 + 1 * 0) = 0; omega
    | ⟨1, _⟩ => show win0_4.index t (1 : Fin 2) * 512 + 1 * (0 + 1 * a.val) = a.val; omega
  rw [he]
  exact Cert.Layers.row_cast_at _ _ a

theorem w2_at (c : Dev nD) (t : Fin cfg0.N) (a : Fin 512) (b : Fin 256) :
    View.ld (iblk (F := Ideal) m c 5 t) r0_2 (ix2 a b) = m ((c : Thread nD τ).loc main_arg5) (ix2 a b) := by
  show V m c main_arg5 (((cfg0.win 5).blk t).view.emb (r0_2.idx (ix2 a b))) = _
  rw [V_main_arg5]
  obtain ⟨-, -, -, -, -, -, -, -, -, -, e0, e1, -⟩ := idx_facts t
  refine congrArg _ (funext fun ax => Fin.ext ?_)
  match ax with
  | ⟨0, _⟩ => show win0_5.index t (0 : Fin 2) * 512 + 1 * (0 + 1 * a.val) = a.val; omega
  | ⟨1, _⟩ => show win0_5.index t (1 : Fin 2) * 256 + 1 * (0 + 1 * b.val) = b.val; omega

theorem b2_at (c : Dev nD) (t : Fin cfg0.N) (a : Fin 256) :
    View.ld (iblk (F := Ideal) m c 6 t) r0_3 (ix2 (0 : Fin 1) a) = m ((c : Thread nD τ).loc main_arg6) (ix1 a) := by
  show V m c main_v2 (((cfg0.win 6).blk t).view.emb (r0_3.idx (ix2 (0 : Fin 1) a))) = _
  rw [V_v2]
  obtain ⟨-, -, -, -, -, -, -, -, -, -, -, -, e0, e1, -⟩ := idx_facts t
  have he : ((cfg0.win 6).blk t).view.emb (r0_3.idx (ix2 (0 : Fin 1) a)) = ix2 (0 : Fin 1) a := by
    funext ax; apply Fin.ext
    match ax with
    | ⟨0, _⟩ => show win0_6.index t (0 : Fin 2) * 1 + 1 * (0 + 1 * 0) = 0; omega
    | ⟨1, _⟩ => show win0_6.index t (1 : Fin 2) * 256 + 1 * (0 + 1 * a.val) = a.val; omega
  rw [he]
  exact Cert.Layers.row_cast_at _ _ a

/-! ## The body's stored value at an entry -/

/-- The stored value at (p, q) is the perceptron's value on row p of the loaded input tile. -/
theorem pay_at (v0 : Vec Ideal S512x512 .f32) (v1 : Vec Ideal S512x512 .f32) (v3 : Vec Ideal S1x512 .f32)
    (v8 : Vec Ideal S512x512 .f32) (v10 : Vec Ideal S1x512 .f32) (v15 : Vec Ideal S512x256 .f32) (v17 : Vec Ideal S1x256 .f32)
    (p : Fin 512) (q : Fin 256) :
    k0_pay1 v0 v1 v3 v8 v10 v15 v17 (ix2 p q)
      = Cert.Spec.mlpRow (fun i => v0 (ix2 p i)) (fun a b => v1 (ix2 a b)) (fun a => v3 (ix2 (0 : Fin 1) a))
          (fun a b => v8 (ix2 a b)) (fun a => v10 (ix2 (0 : Fin 1) a)) (fun a b => v15 (ix2 a b)) (fun a => v17 (ix2 (0 : Fin 1) a)) q := by
  unfold k0_pay1
  simp only [shapeCast_self]
  exact Cert.Layers.mlp_at dot_S512x512_S512x512_S512x512_1_0_0_1_n_n dot_S512x512_S512x256_S512x256_1_0_0_1_n_n
    rfl rfl rfl rfl rfl rfl rfl rfl rfl rfl rfl rfl v0 v1 v3 v8 v10 v15 v17 broadcasts_S1x512_S512x512 broadcasts_S1x256_S512x256 p q

/-! ## What a point writes back, the cover, and the run -/

/-- What point t writes back is its block of the one function `Gr`. -/
theorem flushed7_eq (c : Dev nD) (t : Fin cfg0.N) :
    (dats m 0 c).flushed 7 t = ((cfg0.win 7).blk t).view.read (Elt Ideal) (Gr m c) := by
  rw [flushed7]
  unfold out0_7
  rw [View.canon_unit_zero hz]
  funext j
  obtain ⟨p, q, rfl⟩ : ∃ (p : Fin 512) (q : Fin 256), j = ix2 p q := ⟨j 0, j 1, eq_ix2 j⟩
  obtain ⟨-, -, -, -, -, -, -, -, -, -, -, -, -, -, e0, e1⟩ := idx_facts t
  have ht : t.val < 32 := Nat.lt_of_lt_of_eq t.isLt N_0
  have he : ((cfg0.win 7).blk t).view.emb (ix2 p q) = ix2 (⟨t.val * 512 + p.val, by have := p.isLt; omega⟩ : Fin 16384) q := by
    funext ax; apply Fin.ext
    match ax with
    | ⟨0, _⟩ => show win0_7.index t (0 : Fin 2) * 512 + 1 * p.val = t.val * 512 + p.val; omega
    | ⟨1, _⟩ => show win0_7.index t (1 : Fin 2) * 256 + 1 * q.val = q.val; omega
  show k0_pay1 (View.ld (iblk m c 0 t) r0_0) (View.ld (iblk m c 1 t) r0_0) (View.ld (iblk m c 2 t) r0_1) (View.ld (iblk m c 3 t) r0_0)
      (View.ld (iblk m c 4 t) r0_1) (View.ld (iblk m c 5 t) r0_2) (View.ld (iblk m c 6 t) r0_3) (ix2 p q)
    = Gr m c (((cfg0.win 7).blk t).view.emb (ix2 p q))
  rw [he]
  refine Eq.trans ?_ (Cert.Spec.G_at _ _ _ _ _ _ _ _ q).symm
  refine (pay_at (View.ld (iblk m c 0 t) r0_0) (View.ld (iblk m c 1 t) r0_0) (View.ld (iblk m c 2 t) r0_1) (View.ld (iblk m c 3 t) r0_0)
      (View.ld (iblk m c 4 t) r0_1) (View.ld (iblk m c 5 t) r0_2) (View.ld (iblk m c 6 t) r0_3) p q).trans ?_
  exact Cert.Spec.mlpRow_congr q (funext fun i => x_at m c t p i _ rfl)
    (funext fun a => funext fun b => w0_at m c t a b) (funext fun a => b0_at m c t a)
    (funext fun a => funext fun b => w1_at m c t a b) (funext fun a => b1_at m c t a)
    (funext fun a => funext fun b => w2_at m c t a b) (funext fun a => b2_at m c t a)

/-- An index of the result array is in point t's block iff its row is in the t-th row tile. -/
theorem mem_blk7 (t : Fin cfg0.N) (i : S16384x256.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v3).slice (win0_7.rect t)).set ↔ _
  rw [View.set_slice_whole, Rect.mem_set_unit]
  exact Iff.rfl

/-- Every index of the result array is in the block of the point its row tile names. -/
theorem cover7 (i : S16384x256.Idx) : ∃ t : Fin cfg0.N, (cfg0.win 7).flush t = true ∧ i ∈ ((cfg0.win 7).blk t).view.set := by
  have hi0 : (i 0).val < 16384 := (i 0).isLt
  have hi1 : (i 1).val < 256 := (i 1).isLt
  let t : Fin cfg0.N := ⟨(i 0).val / 512, Nat.lt_of_lt_of_eq (by omega : (i 0).val / 512 < 32) N_0.symm⟩
  obtain ⟨-, -, -, -, -, -, -, -, -, -, -, -, -, -, e0, e1⟩ := idx_facts t
  have htv : t.val = (i 0).val / 512 := rfl
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 256 ≤ (i 1).val ∧ (i 1).val < win0_7.index t (1 : Fin 2) * 256 + 256; omega

/-- The result array after the run is `Gr`. -/
theorem final7 (c : Dev nD) : (dats m 0 c).arrAt 7 cfg0.N = Gr m c :=
  (dats m 0 c).arrAt_eq_of_cover 7 (Gr m c) (fun t _ => flushed7_eq m c t) cover7

/-- The run: the result array at the one function of the arguments, the arguments unchanged. -/
theorem run : θ_run defs (onTc (τ := τ) (main (F := Ideal))) ⟨m, fun _ => 0, ρ⟩ fun r => ∀ c : Dev nD,
      r.2.mem ((c : Thread nD τ).loc main_v3) = Gr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2⟩) (run_blocks m ρ)

end Cert.ReferenceIdeal.RefValue

end
-- ==== Proof.lean ====
/-
  The packed three-layer perceptron against the reference perceptron, over the extended reals.

  Both programs compute, for every row x of the [16384, 512] input,
    y = tanh (tanh (x · w0 + b0) · w1 + b1) · w2 + b2,
  with every product a plain sum into a zero accumulator. The kernel's program first sets the three weight matrices
  side by side in one [512, 1280] array and the three biases in one [1, 1280] row, runs 8 row tiles of 2048 rows and
  reads the weights and biases back through three column spans; the reference runs 32 row tiles of 512 rows with one
  window per weight matrix and per bias row. Read at an entry (r, q), both results are the same expression of row r
  of the input, the weights and the biases (`Cert.Spec.G`): no algebraic law is needed, so finiteness of the inputs
  is never used.

  The frames: no host operation writes an argument array and each region writes back only its result window, so the
  seven argument arrays end unchanged (the kernel's program at both float instances in FrameKernel / FrameKernelIdeal;
  the reference's by its generated frame). No operation of the kernel was rewritten for the ideal reading, so the
  preservation conjunct is trivial.
-/
import proofs.«116541_g2000203459963882_pallasbulk_452_10_alg».proof.Defs
import proofs.«116541_g2000203459963882_pallasbulk_452_10_alg».proof.Proof.Gen.Kernel
import proofs.«116541_g2000203459963882_pallasbulk_452_10_alg».proof.Proof.Gen.KernelIdeal
import proofs.«116541_g2000203459963882_pallasbulk_452_10_alg».proof.Proof.Gen.ReferenceIdeal
import proofs.«116541_g2000203459963882_pallasbulk_452_10_alg».proof.Proof.Gen.ReferenceIdeal.Frame
import proofs.«116541_g2000203459963882_pallasbulk_452_10_alg».proof.Proof.Gen.Pre_finite_inputs
import proofs.«116541_g2000203459963882_pallasbulk_452_10_alg».proof.Proof.FrameKernel
import proofs.«116541_g2000203459963882_pallasbulk_452_10_alg».proof.Proof.KernelValue
import proofs.«116541_g2000203459963882_pallasbulk_452_10_alg».proof.Proof.ReferenceValue
import Idealize.ShloMosaic.Adequacy
import Idealize.ShloMosaic.Init

noncomputable section

namespace Cert.Proof

open Idealize.ShloMosaic Idealize.SL.Sem

theorem frame_k : Cert.frame_Kernel := fun m ρ _ => Cert.Kernel.HFrame.frame m ρ

theorem frame_ki : Cert.frame_KernelIdeal := fun m ρ _ => Cert.KernelIdeal.HFrame.frame m ρ

theorem frame_ri : Cert.frame_ReferenceIdeal := fun m ρ _ => Cert.ReferenceIdeal.Gen.frame m ρ

/-- From memories that agree on the seven arguments both programs end with the result array at the same function of
    the arguments. -/
theorem algebraic : Cert.algebraic_KernelIdeal_ReferenceIdeal := by
  intro m ρ m' ρ' _ hagree
  refine ⟨fun c => Cert.KernelIdeal.KValue.Gk m c, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6⟩ := hagree c
  show Cert.Spec.G _ _ _ _ _ _ _ = Cert.Spec.G _ _ _ _ _ _ _
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
